-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg1 : IVec S1600000 32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_c_10 : IVec S_ 32 := constantI S_ 32 0#32
  let main_v29 : IVec S1600000 32 := broadcastInDim S1600000 ![] bcast_S_S1600000 main_c_10
  let main_v30 : IVec S1600000 1 := cmpi .sge main_arg1 main_v29
  let main_c_11 : IVec S_ 1 := constantI S_ 1 1#1
  let main_v31 : IVec S_ 1 := (fun x v => Host.reduce IntOp.andi x v reducesTo_S1600000_S_d0 h_S_) main_v30 main_c_11
  let main_v32 : IVec S_ 1 := andi main_v28 main_v31
  main_v32

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S10000x128 : Shape := ⟨2, ![10000, 128]⟩
abbrev S10000x64 : Shape := ⟨2, ![10000, 64]⟩
abbrev S1600000x1 : Shape := ⟨2, ![1600000, 1]⟩
abbrev S1600000x64 : Shape := ⟨2, ![1600000, 64]⟩
abbrev S_ : Shape := ⟨0, ![]⟩
abbrev S1x64 : Shape := ⟨2, ![1, 64]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 32
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000x64, .f32⟩
  | .hbm, ⟨9, _⟩ => ⟨S1600000x1, .i32⟩
  | .hbm, ⟨10, _⟩ => ⟨S1600000x64, .f32⟩
  | .hbm, ⟨11, _⟩ => ⟨S1600000x1, .f32⟩
  | .hbm, ⟨12, _⟩ => ⟨S1600000x64, .f32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S1x64, .f32⟩
  | .hbm, ⟨19, _⟩ => ⟨S100000x32, .f32⟩
  | .hbm, ⟨20, _⟩ => ⟨S1600000x1, .i32⟩
  | .hbm, ⟨21, _⟩ => ⟨S1600000x32, .f32⟩
  | .hbm, ⟨22, _⟩ => ⟨S1600000x1, .f32⟩
  | .hbm, ⟨23, _⟩ => ⟨S1600000x32, .f32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S1x32, .f32⟩
  | .hbm, ⟨30, _⟩ => ⟨S100000x32, .f32⟩
  | .hbm, ⟨31, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x32, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S1600000x1, .f32⟩
  | .hbm, ⟨42, _⟩ => ⟨S1600000x32, .f32⟩
  | .hbm, ⟨43, _⟩ => ⟨S1600000x32, .f32⟩
  | .hbm, ⟨44, _⟩ => ⟨S_, .f32⟩
  | .hbm, ⟨45, _⟩ => ⟨S100000x32, .f32⟩
  | .hbm, ⟨46, _⟩ => ⟨S1600000x1, .i32⟩
  | .hbm, ⟨47, _⟩ => ⟨S100000x32, .f32⟩
  | .hbm, ⟨48, _⟩ => ⟨S1x32, .f32⟩
  | .hbm, ⟨49, _⟩ => ⟨S100000x32, .f32⟩
  | .hbm, ⟨50, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Dense2.lean ====
/-
  The second layer's dense product, one block of it. At each of its ten grid points the second pallas_call takes a block
  of 10000 rows of the first aggregation, adds the bias row `b1` to every row, clamps below at zero, and multiplies the
  result by the whole of `W2` (both narrowed to bf16 first, which at the extended reals changes nothing) into a zero
  accumulator. So entry (r, j) of what the body stores is the sum over the 64 contracted positions k of
  max(a[r, k] + b1[k], 0) · W2[k, j], where a is the block of the aggregation.
-/
import proofs.«419845_j24919400251509_3_alg».proof.Proof.Gen.KernelIdeal.Frame
import proofs.«419845_j24919400251509_3_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx

/-! ## One block's product at an entry -/

theorem lhs_0 (j : S10000x32.Idx) (q : dot_S10000x64_S64x32_S10000x32_1_0_0_1_n_n.contr.Idx) :
    (dot_S10000x64_S64x32_S10000x32_1_0_0_1_n_n.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_1 (j : S10000x32.Idx) (q : dot_S10000x64_S64x32_S10000x32_1_0_0_1_n_n.contr.Idx) :
    (dot_S10000x64_S64x32_S10000x32_1_0_0_1_n_n.lhsIdx j q 1).val = (q ⟨0, by decide⟩).val :=
  dot_S10000x64_S64x32_S10000x32_1_0_0_1_n_n.lhsIdx_val_of_single rfl j q
theorem rhs_0 (j : S10000x32.Idx) (q : dot_S10000x64_S64x32_S10000x32_1_0_0_1_n_n.contr.Idx) :
    (dot_S10000x64_S64x32_S10000x32_1_0_0_1_n_n.rhsIdx j q 0).val = (q ⟨0, by decide⟩).val :=
  dot_S10000x64_S64x32_S10000x32_1_0_0_1_n_n.rhsIdx_val_of_single rfl j q
theorem rhs_1 (j : S10000x32.Idx) (q : dot_S10000x64_S64x32_S10000x32_1_0_0_1_n_n.contr.Idx) :
    (dot_S10000x64_S64x32_S10000x32_1_0_0_1_n_n.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Row `j 0`, column `k` of the block of the aggregation. -/
abbrev rowAt (j : S10000x32.Idx) (k : Fin 64) : S10000x64.Idx := fun a => match a with
  | ⟨0, _⟩ => ⟨(j 0).val, (j 0).isLt⟩
  | ⟨1, _⟩ => ⟨k.val, k.isLt⟩
/-- Row `k`, column `j 1` of `W2`. -/
abbrev colAt (j : S10000x32.Idx) (k : Fin 64) : S64x32.Idx := fun a => match a with
  | ⟨0, _⟩ => ⟨k.val, k.isLt⟩
  | ⟨1, _⟩ => ⟨(j 1).val, (j 1).isLt⟩
/-- Column `k` of the one bias row. -/
abbrev biasAt (k : Fin 64) : S1x64.Idx := fun a => match a with
  | ⟨0, _⟩ => ⟨0, Nat.one_pos⟩
  | ⟨1, _⟩ => ⟨k.val, k.isLt⟩

/-- What the body stores, at entry `j` of the block: the sum over the 64 contracted positions of the clamped,
    biased aggregation times `W2`. -/
theorem pay_apply (a : FVec Ideal S10000x64 .f32) (b : FVec Ideal S1x64 .f32) (w : FVec Ideal S64x32 .f32) (j : S10000x32.Idx) :
    k1_pay1 (F := Ideal) a b w j
      = ∑ k : Fin 64, FloatOps.maximumf (FloatOps.addf (a (rowAt j k)) (b (biasAt k))) (FloatOps.ofBits .f32 0x00000000#32) * w (colAt j k) := by
  unfold k1_pay1
  simp only [matmul]
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx j ((contrEquiv1 dot_S10000x64_S64x32_S10000x32_1_0_0_1_n_n 64 rfl rfl).symm k) = rowAt j k := funext fun a => Fin.ext (by
    match a with
    | ⟨0, _⟩ => exact lhs_0 _ _
    | ⟨1, _⟩ => exact (lhs_1 _ _).trans hk)
  have er : dot_S10000x64_S64x32_S10000x32_1_0_0_1_n_n.rhsIdx j ((contrEquiv1 dot_S10000x64_S64x32_S10000x32_1_0_0_1_n_n 64 rfl rfl).symm k) = colAt j k := funext fun a => Fin.ext (by
    match a with
    | ⟨0, _⟩ => exact (rhs_0 _ _).trans hk
    | ⟨1, _⟩ => exact rhs_1 _ _)
  rw [el, er]
  show FloatOps.maximumf (FloatOps.addf (shapeCast S10000x64 a shapeCasts_S10000x64_S10000x64 (rowAt j k))
      (broadcastTo S10000x64 (shapeCast S1x64 b shapeCasts_S1x64_S1x64) broadcasts_S1x64_S10000x64 (rowAt j k)))
      (FloatOps.ofBits .f32 0x00000000#32) * w (colAt j k) = _
  rw [shapeCast_self, shapeCast_self, broadcastTo_apply b broadcasts_S1x64_S10000x64 (rowAt j k) (biasAt k) (fun ax => match ax with
    | ⟨0, _⟩ => by show (0 : Nat) = if (1 : Nat) = 1 then 0 else _; rw [if_pos rfl]
    | ⟨1, _⟩ => by show k.val = if (64 : Nat) = 1 then 0 else k.val; rw [if_neg (by decide)])]

end Cert.KernelIdeal.Dense2

end
-- ==== Proof.Dense2Array.lean ====
/-
  From the second region's blocks to its array. The region is read at whatever contents `V` it is entered from,
  told only what `V` holds in the three arrays it reads: the first aggregation, the bias as one row, and `W2`.
  At point `t` the block of the aggregation is rows 10000·t … 10000·t + 9999, the bias row and `W2` are whole, and
  the output block is rows 10000·t … of the output; so what the point writes back is that block of the one product
  relu(agg + b1) · W2, and since the ten blocks tile the rows the array ends as that product.
-/
import proofs.«419845_j24919400251509_3_alg».proof.Proof.Dense2

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)
variable (V : (c : Dev nD) → (b : Ref sig .tc) → Buf (Elt Ideal) ((c : Thread nD τ).loc b))

theorem hz : (![0, 0] : Fin 2 → Nat) = fun _ => 0 := funext fun a => by fin_cases a <;> rfl

/-- The first aggregation of the launch contents, as the reference states it (its scatter's result). -/
abbrev agg (c : Dev nD) : S100000x64.Idx → EReal :=
  Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The bias as the one row the reference broadcasts. -/
abbrev biasRow (c : Dev nD) : S1x64.Idx → EReal := Cert.ReferenceIdeal.Read.val_main_v14 (F := Ideal) (m ((c : Thread nD τ).loc main_arg5))
/-- The one product relu(agg + b1) · W2 of the launch contents, as the reference's second `dot_general` states it. -/
abbrev prod (c : Dev nD) : S100000x32.Idx → EReal :=
  Cert.ReferenceIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The printed index maps over the grid: the blocks of the aggregation and of the output move down the rows with
    the point, the bias row and `W2` stay whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (r, k) of the block of the aggregation at point `t` is entry (10000·t + r, k) of the aggregation: the entry
    the product reads for output row `i 0 = 10000·t + r`. -/
theorem blk_a (c : Dev nD) (hA : V c main_v7 = agg m c) (t : Fin cfg1.N) (j : S10000x32.Idx) (k : Fin 64)
    (i : S100000x32.Idx) (hi0 : (i 0).val = t.val * 10000 + (j 0).val) :
    iblk1 V c 0 t (rowAt j k) = agg m c (Cert.ReferenceIdeal.Read.lidx_main_v18 i k) := by
  show V c main_v7 (((cfg1.win 0).blk t).view.emb (rowAt j k)) = _
  rw [hA]
  refine congrArg _ ?_
  obtain ⟨e0, e1, e2, e3, e4, e5, e6, e7⟩ := idx_facts t
  funext a; apply Fin.ext
  match a with
  | ⟨0, _⟩ => show win1_0.index t (0 : Fin 2) * 10000 + 1 * (j 0).val = (i 0).val; omega
  | ⟨1, _⟩ => show win1_0.index t (1 : Fin 2) * 64 + 1 * k.val = k.val; omega

/-- Column `k` of the bias block (the one row, at every point) is `b1[k]`, which the reference broadcasts down the rows. -/
theorem blk_b (c : Dev nD) (hB : V c main_v8 = biasRow m c) (t : Fin cfg1.N) (k : Fin 64) (i : S100000x32.Idx) :
    iblk1 V c 1 t (biasAt k) = biasRow m c (Cert.ReferenceIdeal.Read.idx_main_v15 (Cert.ReferenceIdeal.Read.lidx_main_v18 i k)) := by
  show V c main_v8 (((cfg1.win 1).blk t).view.emb (biasAt k)) = _
  rw [hB]
  refine congrArg _ ?_
  obtain ⟨e0, e1, e2, e3, e4, e5, e6, e7⟩ := idx_facts t
  funext a; apply Fin.ext
  match a with
  | ⟨0, _⟩ => show win1_1.index t (0 : Fin 2) * 1 + 1 * 0 = 0; omega
  | ⟨1, _⟩ => show win1_1.index t (1 : Fin 2) * 64 + 1 * k.val = k.val; omega

/-- Entry (k, j) of the block of `W2` (the whole of it, at every point) is that entry of `W2`. -/
theorem blk_w (c : Dev nD) (hW : V c main_arg6 = m ((c : Thread nD τ).loc main_arg6)) (t : Fin cfg1.N) (j : S10000x32.Idx) (k : Fin 64)
    (i : S100000x32.Idx) (hi1 : (i 1).val = (j 1).val) :
    iblk1 V c 2 t (colAt j k) = m ((c : Thread nD τ).loc main_arg6) (Cert.ReferenceIdeal.Read.ridx_main_v18 i k) := by
  show V c main_arg6 (((cfg1.win 2).blk t).view.emb (colAt j k)) = _
  rw [hW]
  refine congrArg _ ?_
  obtain ⟨e0, e1, e2, e3, e4, e5, e6, e7⟩ := idx_facts t
  funext a; apply Fin.ext
  match a with
  | ⟨0, _⟩ => show win1_2.index t (0 : Fin 2) * 64 + 1 * k.val = k.val; omega
  | ⟨1, _⟩ => show win1_2.index t (1 : Fin 2) * 32 + 1 * (j 1).val = (i 1).val; omega

/-- One entry of the block the body stores, against the entry of the one product at the array index `i` it lands on. -/
theorem entry_eq (c : Dev nD) (hA : V c main_v7 = agg m c) (hB : V c main_v8 = biasRow m c)
    (hW : V c main_arg6 = m ((c : Thread nD τ).loc main_arg6)) (t : Fin cfg1.N) (j : S10000x32.Idx) (i : S100000x32.Idx)
    (hi0 : (i 0).val = t.val * 10000 + (j 0).val) (hi1 : (i 1).val = (j 1).val) :
    k1_pay1 (F := Ideal) (iblk1 V c 0 t) (iblk1 V c 1 t) (iblk1 V c 2 t) j = prod m c i := by
  refine (pay_apply (iblk1 V c 0 t) (iblk1 V c 1 t) (iblk1 V c 2 t) j).trans ?_
  refine Eq.trans ?_ (Cert.ReferenceIdeal.Read.val_main_v18_apply _ _ _ _ _ _ _ _).symm
  refine Finset.sum_congr rfl fun k _ => ?_
  rw [blk_a m V c hA t j k i hi0, blk_b m V c hB t k i, blk_w m V c hW t j k i hi1,
    Cert.ReferenceIdeal.Read.val_main_v17_apply, Cert.ReferenceIdeal.Read.val_main_v16_apply, Cert.ReferenceIdeal.Read.val_main_v15_apply,
    Cert.ReferenceIdeal.Read.val_main_call0_v0_apply, Cert.ReferenceIdeal.Read.val_main_call0_cst_apply]

/-- What point `t` writes back is its block of the one product: entry `j` of the stored block lands on row
    10000·t + `j 0`, column `j 1` of the array. -/
theorem flushed_eq (c : Dev nD) (hA : V c main_v7 = agg m c) (hB : V c main_v8 = biasRow m c)
    (hW : V c main_arg6 = m ((c : Thread nD τ).loc main_arg6)) (t : Fin cfg1.N) :
    (dat1 V c).flushed 3 t = ((cfg1.win 3).blk t).view.read (Elt Ideal) (prod m c) := by
  generalize hP : prod m c = P
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x32) hz]
  funext j
  rw [View.read_apply]
  rw [cast_eq]
  show k1_pay1 (F := Ideal) (iblk1 V c 0 t) (iblk1 V c 1 t) (iblk1 V c 2 t) ((win1 3).xinj (grid1.coords t) j) = _
  rw [← hP]
  obtain ⟨e0, e1, e2, e3, e4, e5, e6, e7⟩ := idx_facts t
  exact entry_eq m V c hA hB hW t _ _
    (by show win1_3.index t (0 : Fin 2) * 10000 + 1 * (j 0).val = t.val * 10000 + (j 0).val; omega)
    (by show win1_3.index t (1 : Fin 2) * 32 + 1 * (j 1).val = (j 1).val; omega)

/-- An index of the output array is in point `t`'s block iff each coordinate is in the block's range. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v9).slice (win1_3.rect t)).set ↔ _
  rw [View.set_slice_whole, Rect.mem_set_unit]
  exact Iff.rfl

/-- Row `r` lies in the block of point `r / 10000`: the ten blocks tile the rows. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  have ht : (i 0).val / 10000 < cfg1.N := by rw [hN]; omega
  refine ⟨⟨(i 0).val / 10000, ht⟩, flush1_3 _, ?_⟩
  rw [mem_blk]
  obtain ⟨e0, e1, e2, e3, e4, e5, e6, e7⟩ := idx_facts ⟨(i 0).val / 10000, ht⟩
  have e6' : win1_3.index ⟨(i 0).val / 10000, ht⟩ (0 : Fin 2) = (i 0).val / 10000 := e6
  intro a
  match a with
  | ⟨0, _⟩ => show win1_3.index ⟨(i 0).val / 10000, ht⟩ (0 : Fin 2) * 10000 ≤ (i 0).val ∧ (i 0).val < win1_3.index ⟨(i 0).val / 10000, ht⟩ (0 : Fin 2) * 10000 + 10000; omega
  | ⟨1, _⟩ => show win1_3.index ⟨(i 0).val / 10000, ht⟩ (1 : Fin 2) * 32 ≤ (i 1).val ∧ (i 1).val < win1_3.index ⟨(i 0).val / 10000, ht⟩ (1 : Fin 2) * 32 + 32; omega

/-- THE ARRAY the second region leaves, given what it finds in its input arrays: the one product relu(agg + b1) · W2. -/
theorem final (c : Dev nD) (hA : V c main_v7 = agg m c) (hB : V c main_v8 = biasRow m c)
    (hW : V c main_arg6 = m ((c : Thread nD τ).loc main_arg6)) :
    (dat1 V c).arrAt 3 cfg1.N = prod m c :=
  (dat1 V c).arrAt_eq_of_cover 3 (prod m c) (fun t _ => flushed_eq m V c hA hB hW t) cover

end Cert.KernelIdeal.Dense2

end
-- ==== Proof.Dense1.lean ====
/-
  The first layer's dense product. The first pallas_call walks the rows of `x` in ten blocks of 10000 rows; at each
  block it multiplies the block by the whole of `W1` (both narrowed to bf16 first, which at the extended reals changes
  nothing) into a zero accumulator and writes the 10000 × 64 product back. So entry (r, j) of the block at point `t`
  is the sum over k of x[10000·t + r, k] · W1[k, j], which is entry (10000·t + r, j) of the one product x · W1 the
  reference computes with a single `dot_general`. The ten blocks tile the 100000 rows, hence the array the region leaves
  is that product.
-/
import proofs.«419845_j24919400251509_3_alg».proof.Proof.Gen.KernelIdeal.Frame
import proofs.«419845_j24919400251509_3_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem Idealize.ShloMosaic.ValueIdx

/-! ## One block's product at an entry -/

theorem lhs_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Row `j 0`, column `k` of the block of `x`. -/
abbrev rowAt (j : S10000x64.Idx) (k : Fin 128) : S10000x128.Idx := fun a => match a with
  | ⟨0, _⟩ => ⟨(j 0).val, (j 0).isLt⟩
  | ⟨1, _⟩ => ⟨k.val, k.isLt⟩
/-- Row `k`, column `j 1` of `W1`. -/
abbrev colAt (j : S10000x64.Idx) (k : Fin 128) : S128x64.Idx := fun a => match a with
  | ⟨0, _⟩ => ⟨k.val, k.isLt⟩
  | ⟨1, _⟩ => ⟨(j 1).val, (j 1).isLt⟩

/-- What the body stores, at entry `j` of the block: the sum over the 128 contracted positions. -/
theorem pay_apply (x : FVec Ideal S10000x128 .f32) (w : FVec Ideal S128x64 .f32) (j : S10000x64.Idx) :
    k0_pay1 (F := Ideal) x w j = ∑ k : Fin 128, x (rowAt j k) * w (colAt j k) := by
  unfold k0_pay1
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx j ((contrEquiv1 dot_S10000x128_S128x64_S10000x64_1_0_0_1_n_n 128 rfl rfl).symm k) = rowAt j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((contrEquiv1 dot_S10000x128_S128x64_S10000x64_1_0_0_1_n_n 128 rfl rfl).symm k) = colAt j k := funext fun a => Fin.ext (by
    match a with
    | ⟨0, _⟩ => exact (rhs_0 _ _).trans hk
    | ⟨1, _⟩ => exact rhs_1 _ _)
  rw [el, er]
  rfl

/-! ## From the blocks to the array -/

variable (m : (ℓ : Loc nD τ sig) → Buf (Elt Ideal) ℓ) (ρ : Dev nD → PrngReg)

theorem hz : (![0, 0] : Fin 2 → Nat) = fun _ => 0 := funext fun a => by fin_cases a <;> rfl

/-- The one product `x · W1` of the launch contents, as the reference's `dot_general` states it. -/
abbrev prod (c : Dev nD) : S100000x64.Idx → EReal :=
  Cert.ReferenceIdeal.Read.val_main_v0 (F := Ideal) (m ((c : Thread nD τ).loc main_arg0)) (m ((c : Thread nD τ).loc main_arg4))

/-- The printed index maps over the grid: the blocks of `x` and of the output move down the rows with the point,
    `W1` stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of the block of `x` at point `t` is the entry of `x` the product reads for output row 10000·t + r. -/
theorem blk_x (c : Dev nD) (t : Fin cfg0.N) (j : S10000x64.Idx) (k : Fin 128) :
    iblk0 (V0 m ρ) c 0 t (rowAt j k)
      = m ((c : Thread nD τ).loc main_arg0) (Cert.ReferenceIdeal.Read.lidx_main_v0 (((cfg0.win 2).blk t).view.emb j) k) := by
  show m ((c : Thread nD τ).loc main_arg0) (((cfg0.win 0).blk t).view.emb (rowAt j k)) = _
  refine congrArg _ ?_
  obtain ⟨e0, e1, e2, e3, e4, e5⟩ := idx_facts t
  funext a; apply Fin.ext
  match a with
  | ⟨0, _⟩ => show win0_0.index t (0 : Fin 2) * 10000 + 1 * (j 0).val = win0_2.index t (0 : Fin 2) * 10000 + 1 * (j 0).val; omega
  | ⟨1, _⟩ => show win0_0.index t (1 : Fin 2) * 128 + 1 * k.val = k.val; omega

/-- Entry (k, j) of the block of `W1` (the whole of it, at every point) is that entry of `W1`. -/
theorem blk_w (c : Dev nD) (t : Fin cfg0.N) (j : S10000x64.Idx) (k : Fin 128) :
    iblk0 (V0 m ρ) c 1 t (colAt j k)
      = m ((c : Thread nD τ).loc main_arg4) (Cert.ReferenceIdeal.Read.ridx_main_v0 (((cfg0.win 2).blk t).view.emb j) k) := by
  show m ((c : Thread nD τ).loc main_arg4) (((cfg0.win 1).blk t).view.emb (colAt j k)) = _
  refine congrArg _ ?_
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 64 + 1 * (j 1).val = win0_2.index t (1 : Fin 2) * 64 + 1 * (j 1).val; omega

/-- What point `t` writes back is its block of the one product. -/
theorem flushed_eq (c : Dev nD) (t : Fin cfg0.N) :
    (dat0 (V0 m ρ) c).flushed 2 t = ((cfg0.win 2).blk t).view.read (Elt Ideal) (prod m c) := by
  show (cfg0.win 2).cut (grid0.coords t) ((dat0 (V0 m ρ) c).after 2 t) = _
  rw [after0_2]
  unfold out0_2
  rw [View.canon_unit_zero hz]
  simp only [View.ld_unit_zero (S := S10000x128) hz, View.ld_unit_zero (S := S128x64) hz]
  funext j
  show k0_pay1 (F := Ideal) (iblk0 (V0 m ρ) c 0 t) (iblk0 (V0 m ρ) c 1 t) j = prod m c (((cfg0.win 2).blk t).view.emb j)
  refine (pay_apply (iblk0 (V0 m ρ) c 0 t) (iblk0 (V0 m ρ) c 1 t) j).trans ?_
  refine Eq.trans ?_ (Cert.ReferenceIdeal.Read.val_main_v0_apply _ _ _).symm
  refine Finset.sum_congr rfl fun k _ => ?_
  rw [blk_x m ρ c t j k, blk_w m ρ c t j k]

/-- An index of the output array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row `r` lies in the block of point `r / 10000`: the ten blocks tile the rows. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  refine ⟨⟨(i 0).val / 10000, ht⟩, flush0_2 _, ?_⟩
  rw [mem_blk]
  obtain ⟨e0, e1, e2, e3, e4, e5⟩ := idx_facts ⟨(i 0).val / 10000, ht⟩
  have e4' : win0_2.index ⟨(i 0).val / 10000, ht⟩ (0 : Fin 2) = (i 0).val / 10000 := e4
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; omega

/-- THE ARRAY the first region leaves: the one product `x · W1`. -/
theorem final (c : Dev nD) : (dat0 (V0 m ρ) c).arrAt 2 cfg0.N = prod m c :=
  (dat0 (V0 m ρ) c).arrAt_eq_of_cover 2 (prod m c) (fun t _ => flushed_eq m ρ c t) cover

end Cert.KernelIdeal.Dense1

end
-- ==== Proof.SrcRange.lean ====
/-
  The source indices are node numbers. The reference reads `h[edge_src]` the numpy way: a negative index is first moved
  up by the number of rows (`select (src < 0) (src + 100000) src`) and only then handed to the gather, while the
  kernel's `take(…, mode="clip")` hands the raw index to the gather. The two agree exactly where no source index is
  negative, which is the added conjunct of the precondition. Here: the conjunct read off the printed predicate, and
  the reference's index preparation shown to be the identity under it.
-/
import proofs.«419845_j24919400251509_3_alg».proof.Pre_finite_inputs
import proofs.«419845_j24919400251509_3_alg».proof.Proof.Gen.Pre_finite_inputs
import proofs.«419845_j24919400251509_3_alg».proof.Proof.Gen.ReferenceIdeal.Read
import Idealize.ShloMosaic.Lib.ReduceAll
import Idealize.ShloMosaic.Lib.Affine
import Idealize.ShloMosaic.Lib.ValueIdx

noncomputable section

namespace Cert.SrcRange

open Idealize.ShloMosaic

instance : Subsingleton Cert.Pre_finite_inputs.S_.Idx := ⟨fun a b => funext fun d => d.elim0⟩

/-- The last conjunct of the printed precondition, at an index: the source index there is not negative. -/
theorem nonneg {x0 : FVec Ideal Cert.Pre_finite_inputs.S100000x128 .f32} {x1 x2 : IVec Cert.Pre_finite_inputs.S1600000 32}
    {x3 : FVec Ideal Cert.Pre_finite_inputs.S1600000 .f32} {x4 : FVec Ideal Cert.Pre_finite_inputs.S128x64 .f32}
    {x5 : FVec Ideal Cert.Pre_finite_inputs.S64 .f32} {x6 : FVec Ideal Cert.Pre_finite_inputs.S64x32 .f32}
    {x7 : FVec Ideal Cert.Pre_finite_inputs.S32 .f32}
    (h : Cert.Pre_finite_inputs.fn (F := Ideal) x0 x1 x2 x3 x4 x5 x6 x7 = fun _ => 1#1)
    (i : Cert.Pre_finite_inputs.S1600000.Idx) : IntOp.cmpi .sge (x1 i) 0#32 = 1#1 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 i
  exact h2

open Cert.ReferenceIdeal.Read in
/-- Where no source index is negative the reference's preparation of the first layer's gather indices — move a
    negative index up by the number of rows — is the identity. -/
theorem wrap_eq (x1 : IVec Cert.ReferenceIdeal.S1600000 32) (hx : ∀ i, IntOp.cmpi .sge (x1 i) 0#32 = 1#1) :
    val_main_v5 (F := Ideal) x1 = x1 := by
  funext i
  rw [val_main_v5_apply, val_main_v2_apply, val_main_v1_apply, val_main_c_apply]
  have h := hx i
  have z : (0#32 : BitVec 32).toInt = 0 := by decide
  have hlt : ¬ IntOp.cmpi .slt (x1 i) 0#32 = 1#1 := by
    rw [IntOp.cmpi_slt]; rw [IntOp.cmpi_sge] at h; omega
  show (if IntOp.cmpi .slt (x1 i) 0#32 = 1 then _ else _) = _
  split
  · rename_i hc; exact absurd hc hlt
  · rfl

open Cert.ReferenceIdeal.Read in
/-- The same for the second layer's gather indices. -/
theorem wrap_eq' (x1 : IVec Cert.ReferenceIdeal.S1600000 32) (hx : ∀ i, IntOp.cmpi .sge (x1 i) 0#32 = 1#1) :
    val_main_v23 (F := Ideal) x1 = x1 := by
  funext i
  rw [val_main_v23_apply, val_main_v20_apply, val_main_v19_apply, val_main_c_1_apply]
  have h := hx i
  have z : (0#32 : BitVec 32).toInt = 0 := by decide
  have hlt : ¬ IntOp.cmpi .slt (x1 i) 0#32 = 1#1 := by
    rw [IntOp.cmpi_slt]; rw [IntOp.cmpi_sge] at h; omega
  show (if IntOp.cmpi .slt (x1 i) 0#32 = 1 then _ else _) = _
  split
  · rename_i hc; exact absurd hc hlt
  · rfl

end Cert.SrcRange

end
-- ==== Proof.Between.lean ====
/-
  The host lines between the two regions. After the first region the first layer's product sits in `main_v0`; the
  lines that follow gather its rows at the source indices, weight each gathered row by its edge weight, and scatter-add
  the weighted rows at the destination indices into a zero array: the first aggregation, which the second region reads
  together with the bias reshaped to one row and with `W2`. The reference does the same to the same product, except
  that it first moves negative source indices up by the number of rows; where no source index is negative that step is
  the identity, so the two aggregations are one term.
-/
import proofs.«419845_j24919400251509_3_alg».proof.Proof.Dense1
import proofs.«419845_j24919400251509_3_alg».proof.Proof.SrcRange

set_option maxRecDepth 16384

noncomputable section

namespace Cert.KernelIdeal.Between

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## What the first region leaves in the buffers the host lines read -/

theorem W1_v0 (c : Dev nD) : W1 m ρ c (Proc.devRef .tc main_v0) = Dense1.prod m c :=
  (W1_arr m ρ c 2).trans (Dense1.final m ρ c)
theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)

/-! ## What the second region finds -/

/-- The scatter's result buffer, as the host lines compute it from what the first region left. -/
theorem v7_ops (c : Dev nD) :
    V3 m ρ c main_v7 = Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (W1 m ρ c (Proc.devRef .tc main_arg2)))
      (mulf (Host.gather gather_S100000x64_S1600000x1_S1600000x64_1_0_n_n_0_1_164 (W1 m ρ c (Proc.devRef .tc main_v0)) (broadcastInDim S1600000x1 ![0] bcast_S1600000_S1600000x1_0 (W1 m ρ c (Proc.devRef .tc main_arg1))))
        (broadcastInDim S1600000x64 ![0, 1] bcast_S1600000x1_S1600000x64_0_1 (broadcastInDim S1600000x1 ![0] bcast_S1600000_S1600000x1_0 (W1 m ρ c (Proc.devRef .tc main_arg3))))) := by
  show StableHlo.after hostOps1_1 (StableHlo.after hostOps1 (W1 m ρ c)) (Proc.devRef .tc main_v7) = _
  dsimp only [hostOps1_1, hostOps1]
  after_results
  rfl

/-- Where no source index is negative, the first aggregation is the reference's. -/
theorem v7_eq (c : Dev nD) (hx : ∀ i, IntOp.cmpi .sge (m ((c : Thread nD τ).loc main_arg1) i) 0#32 = 1#1) :
    V3 m ρ c main_v7 = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [v7_ops, W1_v0, W1_arg1, W1_arg2, W1_arg3]
  unfold Cert.ReferenceIdeal.Read.val_main_v13 Cert.ReferenceIdeal.Read.val_main_v10 Cert.ReferenceIdeal.Read.val_main_v7 Cert.ReferenceIdeal.Read.val_main_v6 Cert.ReferenceIdeal.Read.val_main_v9 Cert.ReferenceIdeal.Read.val_main_v8 Cert.ReferenceIdeal.Read.val_main_v11 Cert.ReferenceIdeal.Read.val_main_v12 Cert.ReferenceIdeal.Read.val_main_cst
  rw [Cert.SrcRange.wrap_eq _ hx]
  rfl

/-- The bias reshaped to one row is the row the reference broadcasts. -/
theorem v8_eq (c : Dev nD) : V3 m ρ c main_v8 = Cert.ReferenceIdeal.Read.val_main_v14 (F := Ideal) (m ((c : Thread nD τ).loc main_arg5)) := by
  have e : V3 m ρ c main_v8 = fun i => shapeCast S1x64 (W1 m ρ c (Proc.devRef .tc main_arg5)) shapeCasts_S64_S1x64 i := by
    show StableHlo.after hostOps1_1 (StableHlo.after hostOps1 (W1 m ρ c)) (Proc.devRef .tc main_v8) = _
    dsimp only [hostOps1_1, hostOps1]
    after_results
    rfl
  rw [e, W1_arg5]
  funext i
  rw [Cert.ReferenceIdeal.Read.val_main_v14_apply]
  refine shapeCast_apply (s := S64) (t := S1x64) _ _ i (Cert.ReferenceIdeal.Read.idx_main_v14 i) ?_
  show (S64.rowMajor (Cert.ReferenceIdeal.Read.idx_main_v14 i)).val = (S1x64.rowMajor i).val
  rw [Shape.rowMajor_val_two, Shape.rowMajor_val_one]
  show (i 1).val = (i 0).val * 64 + (i 1).val
  have : (i 0).val < 1 := (i 0).isLt
  omega

/-- `W2` is as launched. -/
theorem arg6_eq (c : Dev nD) : V3 m ρ c main_arg6 = m ((c : Thread nD τ).loc main_arg6) := by
  show StableHlo.after hostOps1_1 (StableHlo.after hostOps1 (W1 m ρ c)) (Proc.devRef .tc main_arg6) = _
  dsimp only [hostOps1_1, hostOps1]
  after_results
  exact W1_arg6 m ρ c

/-- The argument arrays the host lines after the second region read are as launched when that region is entered. -/
theorem W3_arg1 (c : Dev nD) : W3 m ρ c (Proc.devRef .tc main_arg1) = m ((c : Thread nD τ).loc main_arg1) := by
  show StableHlo.after hostOps1_1 (StableHlo.after hostOps1 (W1 m ρ c)) (Proc.devRef .tc main_arg1) = _
  dsimp only [hostOps1_1, hostOps1]
  after_results
  exact W1_arg1 m ρ c
theorem W3_arg2 (c : Dev nD) : W3 m ρ c (Proc.devRef .tc main_arg2) = m ((c : Thread nD τ).loc main_arg2) := by
  show StableHlo.after hostOps1_1 (StableHlo.after hostOps1 (W1 m ρ c)) (Proc.devRef .tc main_arg2) = _
  dsimp only [hostOps1_1, hostOps1]
  after_results
  exact W1_arg2 m ρ c
theorem W3_arg3 (c : Dev nD) : W3 m ρ c (Proc.devRef .tc main_arg3) = m ((c : Thread nD τ).loc main_arg3) := by
  show StableHlo.after hostOps1_1 (StableHlo.after hostOps1 (W1 m ρ c)) (Proc.devRef .tc main_arg3) = _
  dsimp only [hostOps1_1, hostOps1]
  after_results
  exact W1_arg3 m ρ c
theorem W3_arg7 (c : Dev nD) : W3 m ρ c (Proc.devRef .tc main_arg7) = m ((c : Thread nD τ).loc main_arg7) := by
  show StableHlo.after hostOps1_1 (StableHlo.after hostOps1 (W1 m ρ c)) (Proc.devRef .tc main_arg7) = _
  dsimp only [hostOps1_1, hostOps1]
  after_results
  exact W1_arg7 m ρ c

end Cert.KernelIdeal.Between

end
-- ==== Proof.After.lean ====
/-
  The host lines after the second region, and the whole run's result. After the second region the second layer's
  product sits in `main_v9`; the lines that follow gather its rows at the source indices, weight them by the edge
  weights, scatter-add them at the destination indices into a zero array and add the bias `b2` to every row. These are
  the reference's last lines applied to the same product (its one extra step, moving negative source indices up, is
  the identity where no source index is negative), so the result buffer ends at the reference's result term of the
  kernel's own argument arrays.
-/
import proofs.«419845_j24919400251509_3_alg».proof.Proof.Dense2Array
import proofs.«419845_j24919400251509_3_alg».proof.Proof.Between
import proofs.«419845_j24919400251509_3_alg».proof.Proof.KernelRun

set_option maxRecDepth 16384

noncomputable section

namespace Cert.KernelIdeal.After

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## What the second region leaves in the buffers the last host lines read -/

theorem W4_v9 (c : Dev nD) (hx : ∀ i, IntOp.cmpi .sge (m ((c : Thread nD τ).loc main_arg1) i) 0#32 = 1#1) :
    W4 m ρ c (Proc.devRef .tc main_v9) = Dense2.prod m c :=
  (W4_arr m ρ c 3).trans (Dense2.final m (V3 m ρ) c (Between.v7_eq m ρ c hx) (Between.v8_eq m ρ c) (Between.arg6_eq m ρ c))
theorem W4_arg1 (c : Dev nD) : W4 m ρ c (Proc.devRef .tc main_arg1) = m ((c : Thread nD τ).loc main_arg1) :=
  (W4_of_ne m ρ c main_arg1 (by decide)).trans (Between.W3_arg1 m ρ c)
theorem W4_arg2 (c : Dev nD) : W4 m ρ c (Proc.devRef .tc main_arg2) = m ((c : Thread nD τ).loc main_arg2) :=
  (W4_of_ne m ρ c main_arg2 (by decide)).trans (Between.W3_arg2 m ρ c)
theorem W4_arg3 (c : Dev nD) : W4 m ρ c (Proc.devRef .tc main_arg3) = m ((c : Thread nD τ).loc main_arg3) :=
  (W4_of_ne m ρ c main_arg3 (by decide)).trans (Between.W3_arg3 m ρ c)
theorem W4_arg7 (c : Dev nD) : W4 m ρ c (Proc.devRef .tc main_arg7) = m ((c : Thread nD τ).loc main_arg7) :=
  (W4_of_ne m ρ c main_arg7 (by decide)).trans (Between.W3_arg7 m ρ c)

/-! ## The result buffer -/

/-- The result buffer, as the last host lines compute it from what the second region left. -/
theorem v19_ops (c : Dev nD) :
    W6 m ρ c (Proc.devRef .tc main_v19) = addf (Host.scatterAdd (F := Ideal) scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 (W4 m ρ c (Proc.devRef .tc main_arg2)))
      (mulf (Host.gather gather_S100000x32_S1600000x1_S1600000x32_1_0_n_n_0_1_132 (W4 m ρ c (Proc.devRef .tc main_v9))
          (broadcastInDim S1600000x1 ![0] bcast_S1600000_S1600000x1_0 (W4 m ρ c (Proc.devRef .tc main_arg1))))
        (broadcastInDim S1600000x32 ![0, 1] bcast_S1600000x1_S1600000x32_0_1
          (broadcastInDim S1600000x1 ![0] bcast_S1600000_S1600000x1_0 (W4 m ρ c (Proc.devRef .tc main_arg3))))))
      (broadcastInDim S100000x32 ![0, 1] bcast_S1x32_S100000x32_0_1 (broadcastInDim S1x32 ![1] bcast_S32_S1x32_1 (W4 m ρ c (Proc.devRef .tc main_arg7)))) := by
  show StableHlo.after hostOps2_1 (StableHlo.after hostOps2 (W4 m ρ c)) (Proc.devRef .tc main_v19) = _
  dsimp only [hostOps2_1, hostOps2]
  after_results
  rfl

/-- Where no source index is negative, the result buffer ends at the reference's result term of the kernel's own
    argument arrays. -/
theorem v19_eq (c : Dev nD) (hx : ∀ i, IntOp.cmpi .sge (m ((c : Thread nD τ).loc main_arg1) i) 0#32 = 1#1) :
    W6 m ρ c (Proc.devRef .tc main_v19)
      = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [v19_ops, W4_v9 m ρ c hx, W4_arg1, W4_arg2, W4_arg3, W4_arg7]
  unfold Cert.ReferenceIdeal.Read.val_main_v34 Cert.ReferenceIdeal.Read.val_main_v31 Cert.ReferenceIdeal.Read.val_main_v28 Cert.ReferenceIdeal.Read.val_main_v25 Cert.ReferenceIdeal.Read.val_main_v24 Cert.ReferenceIdeal.Read.val_main_v27 Cert.ReferenceIdeal.Read.val_main_v26 Cert.ReferenceIdeal.Read.val_main_v29 Cert.ReferenceIdeal.Read.val_main_v30 Cert.ReferenceIdeal.Read.val_main_cst_3 Cert.ReferenceIdeal.Read.val_main_v33 Cert.ReferenceIdeal.Read.val_main_v32
  rw [Cert.SrcRange.wrap_eq' _ hx]
  rfl

/-- THE RUN, with the result named: where no source index is negative, every weakly fair execution of the kernel's
    program terminates, nothing faulting, with the result buffer at the reference's result term of the argument arrays
    and the arguments as launched. -/
theorem run (hx : ∀ (c : Dev nD) i, IntOp.cmpi .sge (m ((c : Thread nD τ).loc main_arg1) i) 0#32 = 1#1) :
    θ_run defs (onTc (τ := τ) (main (F := Ideal))) ⟨m, fun _ => 0, ρ⟩ (fun r => ∀ c : Dev nD,
      r.2.mem ((c.tc : Thread nD τ).loc main_v19)
        = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (v19_eq m ρ c (hx c)), (h c).2⟩) (Cert.KernelIdeal.Result.run_result m ρ)

end Cert.KernelIdeal.After

end
-- ==== Proof.lean ====
/-
  Two graph-convolution layers, kernel against reference, over the extended reals.

  Both programs compute out = A · relu(A · (x · W1) + b1) · W2 + b2, where A is the N × N matrix given as a weighted edge
  list: "A · h" gathers the rows of h at the source indices, multiplies row e by weight e, and adds it into row dst[e] of a
  zero array. The reference forms the two dense products x · W1 and relu(…) · W2 with one `dot_general` each; the kernel
  forms each in its own pallas_call, ten blocks of 10000 rows at a time, narrowing the operands to bf16 first (the identity
  at the extended reals) and accumulating into zero. A block of a product is the product of the block of rows with the
  whole weight matrix, and the ten blocks tile the rows, so each pallas_call leaves exactly the reference's product
  (Proof/Dense1.lean; Proof/Dense2.lean and Proof/Dense2Array.lean). Everything between and after the calls is the same
  host operation on both sides — same gather, same scatter-add, same broadcasts — applied to equal operands, and is
  never opened (Proof/Between.lean, Proof/After.lean).

  The one difference is how a NEGATIVE source index is read: the reference's `h[edge_src]` moves it up by N before the
  gather, the kernel's `take(…, mode="clip")` lets the gather clamp it to row 0. The precondition therefore carries, beside
  the finiteness of the float inputs, that no source index is negative (Proof/SrcRange.lean reads it off the printed
  predicate and shows the reference's index preparation to be the identity under it). No algebraic law joins the two
  sides: index by index they are the same sums of the same products, so finiteness is never used.

  The frames of the two kernel programs are the generated ones; the reference's frame is its generated run with the
  result dropped; `preserves` has no ledger entry. The kernel's run with its result named is the generated frame's
  launch called once more with the result buffer in the post (Proof/KernelRun.lean).
-/
import proofs.«419845_j24919400251509_3_alg».proof.Defs
import proofs.«419845_j24919400251509_3_alg».proof.Proof.Gen.Kernel
import proofs.«419845_j24919400251509_3_alg».proof.Proof.Gen.Kernel.Skeleton
import proofs.«419845_j24919400251509_3_alg».proof.Proof.Gen.Kernel.Launch
import proofs.«419845_j24919400251509_3_alg».proof.Proof.Gen.Kernel.Points
import proofs.«419845_j24919400251509_3_alg».proof.Proof.Gen.Kernel.Frame
import proofs.«419845_j24919400251509_3_alg».proof.Proof.Gen.KernelIdeal
import proofs.«419845_j24919400251509_3_alg».proof.Proof.Gen.KernelIdeal.Skeleton
import proofs.«419845_j24919400251509_3_alg».proof.Proof.Gen.KernelIdeal.Launch
import proofs.«419845_j24919400251509_3_alg».proof.Proof.Gen.KernelIdeal.Points
import proofs.«419845_j24919400251509_3_alg».proof.Proof.Gen.KernelIdeal.Frame
import proofs.«419845_j24919400251509_3_alg».proof.Proof.Gen.ReferenceIdeal
import proofs.«419845_j24919400251509_3_alg».proof.Proof.Gen.Pre_finite_inputs
import proofs.«419845_j24919400251509_3_alg».proof.Proof.Gen.ReferenceIdeal.Run
import proofs.«419845_j24919400251509_3_alg».proof.Proof.Gen.ReferenceIdeal.Read
import proofs.«419845_j24919400251509_3_alg».proof.Proof.After
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten by the ideal pass: nothing to preserve. -/
theorem preserves : Cert.preserves_Kernel_KernelIdeal := trivial

/-- From memories agreeing on the arguments, with no negative source index, both programs end with the reference's
    result term of the kernel's argument arrays: the kernel by its run read block by block and line by line, the
    reference by its generated run with the arguments' agreement rewritten. -/
theorem algebraic : Cert.algebraic_KernelIdeal_ReferenceIdeal := by
  intro m ρ m' ρ' hpre hagree
  refine ⟨_, Cert.KernelIdeal.After.run m ρ (fun c i => Cert.SrcRange.nonneg (hpre c) i), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.ReferenceIdeal.Read.val_main_v34_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
